-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S50000x64 .f32) (main_arg1 : FVec F S64x64 .f32) (main_arg2 : FVec F S64 .f32) (main_arg3 : FVec F S64x64 .f32) (main_arg4 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 26
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S64x64, .f32⟩
  | .hbm, ⟨23, _⟩ => ⟨S64x64, .f32⟩
  | .hbm, ⟨24, _⟩ => ⟨S1x64, .f32⟩
  | .hbm, ⟨25, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S2x800000, .i32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S64x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S64x64, .f32⟩
  | .hbm, ⟨28, _⟩ => ⟨S50000x64, .f32⟩
  | .hbm, ⟨29, _⟩ => ⟨S50000x64, .f32⟩
  | .hbm, ⟨30, _⟩ => ⟨S_, .f32⟩
  | .hbm, ⟨31, _⟩ => ⟨S50000x64, .f32⟩
  | .hbm, ⟨32, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_cst : Ref sig .tc := ⟨.hbm, 30, rfl⟩
abbrev main_call0_v0 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelWindows.lean ====
/-
  What the host left in the arrays the kernel's weight and bias windows stage.

  Before the launch the host transposes W_rel and W_root and recasts the bias as a one-row matrix; nothing else
  writes those three arrays.
-/
import proofs.«126234_j86973087744670_1_alg».proof.Proof.Gen.KernelIdeal.Frame
import Idealize.ShloMosaic.Lib.StableHlo.Run
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem

variable (m : (ℓ : Loc nD τ sig) → Buf (Elt Ideal) ℓ)

/-- The first weight window's array is the transpose of W_rel. -/
theorem wrelT_eq (c : Dev nD) :
    (V m c main_v14 : S64x64.Idx → EReal) = transpose S64x64 [1, 0] (m ((c : Thread nD τ).loc main_arg1)) transposes_S64x64_S64x64_1_0 := by
  dsimp only [Gen.V, Gen.hostOps0]; after_results <;> rfl

/-- The second weight window's array is the transpose of W_root. -/
theorem wrootT_eq (c : Dev nD) :
    (V m c main_v15 : S64x64.Idx → EReal) = transpose S64x64 [1, 0] (m ((c : Thread nD τ).loc main_arg3)) transposes_S64x64_S64x64_1_0 := by
  dsimp only [Gen.V, Gen.hostOps0]; after_results <;> rfl

/-- The bias window's array is the bias recast as a one-row matrix. -/
theorem biasRow_eq (c : Dev nD) :
    (V m c main_v16 : S1x64.Idx → EReal) = shapeCast S1x64 (m ((c : Thread nD τ).loc main_arg2)) shapeCasts_S64_S1x64 := by
  dsimp only [Gen.V, Gen.hostOps0]; after_results <;> rfl

/-! ## The arrays behind the six windows -/

/-- The neighbour sums as the launch finds them: what the host's gather and scatter-add left in the array the first
    window stages. Never opened after this section: the kernel only reads it, entry by entry. -/
def aggArr (c : Dev nD) : S50000x64.Idx → EReal := V m c main_v13

theorem aggArr_def (c : Dev nD) : aggArr m c = (V m c main_v13 : S50000x64.Idx → EReal) := rfl

/-- Window 0 stages the neighbour sums. -/
theorem arr0_eq (c : Dev nD) : (V m c (Pipeline.arrRef spec0 0) : S50000x64.Idx → EReal) = aggArr m c := rfl

attribute [irreducible] aggArr

/-- Window 1 stages the node features, which no host operation wrote. -/
theorem arr1_eq (c : Dev nD) :
    (V m c (Pipeline.arrRef spec0 1) : S50000x64.Idx → EReal) = m ((c : Thread nD τ).loc main_arg0) := V_main_arg0 m c

/-- Window 2 stages the transpose of W_rel. -/
theorem arr2_eq (c : Dev nD) :
    (V m c (Pipeline.arrRef spec0 2) : S64x64.Idx → EReal)
      = transpose S64x64 [1, 0] (m ((c : Thread nD τ).loc main_arg1)) transposes_S64x64_S64x64_1_0 := wrelT_eq m c

/-- Window 3 stages the transpose of W_root. -/
theorem arr3_eq (c : Dev nD) :
    (V m c (Pipeline.arrRef spec0 3) : S64x64.Idx → EReal)
      = transpose S64x64 [1, 0] (m ((c : Thread nD τ).loc main_arg3)) transposes_S64x64_S64x64_1_0 := wrootT_eq m c

/-- Window 4 stages the bias as a one-row matrix. -/
theorem arr4_eq (c : Dev nD) :
    (V m c (Pipeline.arrRef spec0 4) : S1x64.Idx → EReal)
      = shapeCast S1x64 (m ((c : Thread nD τ).loc main_arg2)) shapeCasts_S64_S1x64 := biasRow_eq m c

end Cert.KernelIdeal.Whole

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.KernelBlocks.lean ====
/-
  The kernel's windows at a grid point.

  The grid has ten points. At point t the neighbour sums', the node features' and the output's windows hold rows
  5000·t … 5000·t + 4999 of their arrays, all 64 columns; the two weight windows and the bias window hold their whole
  arrays at every point. A weight window's entry (k, q) is entry (q, k) of the stored matrix, since the host staged the
  transpose; the bias window's entry (0, q) is b(q).
-/
import proofs.«126234_j86973087744670_1_alg».proof.Proof.KernelWindows
import proofs.«126234_j86973087744670_1_alg».proof.Proof.LibPlainDot
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps over the ten points: the two row-tiled inputs move with the output, whose block row is the
    point's number; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := by
  have h : t.val < grid0.N := t.isLt
  rw [N_0] at h
  exact h

/-- Row `p` of point `t`'s tile is row 5000·t + p of the array. -/
def row (t : Fin cfg0.N) (p : Fin 5000) : Fin 50000 :=
  ⟨t.val * 5000 + p.val, by have := point_lt t; have := p.isLt; omega⟩

/-- Entry (p, q) of the output's block at point `t` is entry (5000·t + p, q) of the array. -/
theorem out_emb (t : Fin cfg0.N) (p : Fin 5000) (q : Fin 64) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 64 + 1 * q.val = q.val; omega

/-- Entry (p, k) of the first window's block at point `t` lies at (5000·t + p, k) of its array. -/
theorem emb0 (t : Fin cfg0.N) (p : Fin 5000) (k : Fin 64) :
    ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The same for the second window. -/
theorem emb1 (t : Fin cfg0.N) (p : Fin 5000) (k : Fin 64) :
    ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- The weight windows' and the bias window's one block is the whole array, at every point. -/
theorem emb2 (t : Fin cfg0.N) (k q : Fin 64) : ((cfg0.win 2).blk t).view.emb (ix2 k q) = ix2 k q := by
  obtain ⟨-, -, -, -, e0, e1, -⟩ := idx_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

theorem emb3 (t : Fin cfg0.N) (k q : Fin 64) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

theorem emb4 (t : Fin cfg0.N) (q : Fin 64) :
    ((cfg0.win 4).blk t).view.emb (ix2 (0 : Fin 1) q) = ix2 (0 : Fin 1) q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- The neighbour sums' tile at point `t`. -/
theorem agg_blk (c : Dev nD) (t : Fin cfg0.N) (p : Fin 5000) (k : Fin 64) :
    iblk m c 0 t (ix2 p k) = aggArr m c (ix2 (row t p) k) := by
  unfold iblk
  rw [View.read_apply, cast_eq, arr0_eq, emb0]

/-- The node features' tile at point `t`. -/
theorem x_blk (c : Dev nD) (t : Fin cfg0.N) (p : Fin 5000) (k : Fin 64) :
    iblk m c 1 t (ix2 p k) = m ((c : Thread nD τ).loc main_arg0) (ix2 (row t p) k) := by
  unfold iblk
  rw [View.read_apply, cast_eq, arr1_eq, emb1]

/-- The first weight window at any point: entry (k, q) is W_rel(q, k). -/
theorem wrel_blk (c : Dev nD) (t : Fin cfg0.N) (k q : Fin 64) :
    iblk m c 2 t (ix2 k q) = m ((c : Thread nD τ).loc main_arg1) (ix2 q k) := by
  unfold iblk
  rw [View.read_apply, cast_eq, arr2_eq, emb2]
  exact Cert.LibPlainDot.transpose2_apply (m ((c : Thread nD τ).loc main_arg1)) transposes_S64x64_S64x64_1_0 k q

/-- The second weight window at any point: entry (k, q) is W_root(q, k). -/
theorem wroot_blk (c : Dev nD) (t : Fin cfg0.N) (k q : Fin 64) :
    iblk m c 3 t (ix2 k q) = m ((c : Thread nD τ).loc main_arg3) (ix2 q k) := by
  unfold iblk
  rw [View.read_apply, cast_eq, arr3_eq, emb3]
  exact Cert.LibPlainDot.transpose2_apply (m ((c : Thread nD τ).loc main_arg3)) transposes_S64x64_S64x64_1_0 k q

/-- The bias window at any point: entry (0, q) is b(q). -/
theorem bias_blk (c : Dev nD) (t : Fin cfg0.N) (q : Fin 64) :
    iblk m c 4 t (ix2 (0 : Fin 1) q) = m ((c : Thread nD τ).loc main_arg2) (ix1 q) := by
  unfold iblk
  rw [View.read_apply, cast_eq, arr4_eq, emb4]
  exact shapeCast_a_1a_apply (m ((c : Thread nD τ).loc main_arg2)) shapeCasts_S64_S1x64 (0 : Fin 1) q

end Cert.KernelIdeal.Whole

end
-- ==== Proof.KernelTile.lean ====
/-
  One tile of the kernel's body, read at an index.

  The body loads a 5000-row tile of the neighbour sums and of the node features, both transposed weight matrices and
  the bias row, narrows the four matrices to bf16 (no change of value on the extended reals), multiplies each tile by
  its weights into a zero accumulator, adds the two products and then the bias row, and clips at zero. At row p and
  channel q of the tile that is

      max( Σ_k a(p, k) · wr(k, q)  +  Σ_k x(p, k) · wo(k, q)  +  bias(0, q),  0 ).
-/
import proofs.«126234_j86973087744670_1_alg».proof.Proof.Gen.KernelIdeal.Skeleton
import proofs.«126234_j86973087744670_1_alg».proof.Proof.LibPlainDot
import Idealize.ShloMosaic.Lib.ValueLayout

noncomputable section

namespace Cert.KernelIdeal.Tile

open Cert.KernelIdeal Cert.KernelIdeal.Gen Idealize.ShloMosaic Idealize.ShloMosaic.ValueIdx

/-- The body's matrix products have the plain dimension numbers: rows × contraction times contraction × columns. -/
theorem dims_plain : dot_S5000x64_S64x64_S5000x64_1_0_0_1_n_n = DotDims.plain 5000 64 64 := rfl

/-- The tile the body stores, at row `p` and channel `q`. -/
theorem pay_apply (a x : Vec Ideal S5000x64 .f32) (wr wo : Vec Ideal S64x64 .f32) (bias : Vec Ideal S1x64 .f32)
    (p : Fin 5000) (q : Fin 64) :
    k0_pay1 (F := Ideal) a x wr wo bias (ix2 p q)
      = max ((∑ k : Fin 64, a (ix2 p k) * wr (ix2 k q)) + (∑ k : Fin 64, x (ix2 p k) * wo (ix2 k q))
          + bias (ix2 (0 : Fin 1) q)) (Ideal.ofBits .f32 0x00000000#32) := by
  unfold k0_pay1
  simp only [shapeCast_self]
  rw [maximumf_apply, addf_apply, addf_apply, broadcast_apply, dims_plain]
  unfold matmul
  rw [Cert.LibPlainDot.matmul_plain_zero, Cert.LibPlainDot.matmul_plain_zero, broadcastTo_1b_ab_apply]
  rfl

end Cert.KernelIdeal.Tile

end
-- ==== Proof.HeadSpec.lean ====
/-
  The dense head of a graph convolution as ONE function of its arrays.

  With neighbour sums A and node features X (50000 × 64 each), weights W_rel and W_root (64 × 64, stored output × input)
  and a bias b (64 entries), the layer's output at node p and channel q is

      out(p, q) = max( Σ_k A(p, k) · W_rel(q, k)  +  Σ_k X(p, k) · W_root(q, k)  +  b(q),  0 ).

  The three summands may be added in either grouping: on the extended reals addition is commutative and associative,
  at the infinities too, so no finiteness of the entries is needed to regroup them.
-/
import Idealize.ShloMosaic.PureOps.Ideal.Laws
import Idealize.ShloMosaic.Lib.ValueIdx

noncomputable section

namespace Cert.GraphConvHead

open Idealize.ShloMosaic Idealize.ShloMosaic.ValueIdx

/-- The layer's output: the neighbour product plus the root product plus the bias, clipped below at zero. -/
def head (A X : FVec Ideal ⟨2, ![50000, 64]⟩ .f32) (Wrel Wroot : FVec Ideal ⟨2, ![64, 64]⟩ .f32)
    (b : FVec Ideal ⟨1, ![64]⟩ .f32) : FVec Ideal ⟨2, ![50000, 64]⟩ .f32 := fun i =>
  max ((∑ k : Fin 64, A (ix2 (i 0) k) * Wrel (ix2 (i 1) k)) + (∑ k : Fin 64, X (ix2 (i 0) k) * Wroot (ix2 (i 1) k))
      + b (ix1 (i 1))) (Ideal.ofBits .f32 0x00000000#32)

/-- The same value with the bias added to the neighbour product first and the root product last. -/
theorem head_bias_first (A X : FVec Ideal ⟨2, ![50000, 64]⟩ .f32) (Wrel Wroot : FVec Ideal ⟨2, ![64, 64]⟩ .f32)
    (b : FVec Ideal ⟨1, ![64]⟩ .f32) (i : (⟨2, ![50000, 64]⟩ : Shape).Idx) :
    max ((∑ k : Fin 64, A (ix2 (i 0) k) * Wrel (ix2 (i 1) k)) + b (ix1 (i 1))
        + (∑ k : Fin 64, X (ix2 (i 0) k) * Wroot (ix2 (i 1) k))) (Ideal.ofBits .f32 0x00000000#32)
      = head A X Wrel Wroot b i := by
  unfold head
  rw [add_right_comm]

end Cert.GraphConvHead

end
-- ==== Proof.KernelArray.lean ====
/-
  The kernel's result array as one function of the arrays the launch finds.

  What a grid point writes back is its tile of the layer's head: at row p and channel q of point t's tile the body
  computes  max( Σ_k A(5000·t + p, k) · W_rel(q, k) + Σ_k x(5000·t + p, k) · W_root(q, k) + b(q), 0 ),  which is the
  head at (5000·t + p, q). The ten tiles are the ten bands of 5000 rows, so they cover the 50000 × 64 output, and the
  array ends holding the head everywhere.
-/
import proofs.«126234_j86973087744670_1_alg».proof.Proof.Gen.KernelIdeal.Value
import proofs.«126234_j86973087744670_1_alg».proof.Proof.KernelBlocks
import proofs.«126234_j86973087744670_1_alg».proof.Proof.KernelTile
import proofs.«126234_j86973087744670_1_alg».proof.Proof.HeadSpec

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.GraphConvHead
open Idealize.ShloMosaic.Pipeline (Dat)

variable (m : (ℓ : Loc nD τ sig) → Buf (Elt Ideal) ℓ) (ρ : Dev nD → PrngReg)

/-- The four float arguments as launched, at their literal shapes. -/
abbrev xArr (c : Dev nD) : S50000x64.Idx → EReal := m ((c : Thread nD τ).loc main_arg0)
abbrev wrelArr (c : Dev nD) : S64x64.Idx → EReal := m ((c : Thread nD τ).loc main_arg1)
abbrev biasArr (c : Dev nD) : S64.Idx → EReal := m ((c : Thread nD τ).loc main_arg2)
abbrev wrootArr (c : Dev nD) : S64x64.Idx → EReal := m ((c : Thread nD τ).loc main_arg3)

/-- The layer's head of the neighbour sums as the launch finds them and of the four float arguments. -/
def G (c : Dev nD) : S50000x64.Idx → EReal :=
  head (aggArr m c) (xArr m c) (wrelArr m c) (wrootArr m c) (biasArr m c)

/-- The head at row 5000·t + p and channel q, written out. -/
theorem G_apply (c : Dev nD) (t : Fin cfg0.N) (p : Fin 5000) (q : Fin 64) :
    G m c (ix2 (row t p) q)
      = max ((∑ k : Fin 64, aggArr m c (ix2 (row t p) k) * wrelArr m c (ix2 q k))
          + (∑ k : Fin 64, xArr m c (ix2 (row t p) k) * wrootArr m c (ix2 q k))
          + biasArr m c (ix1 q)) (Ideal.ofBits .f32 0x00000000#32) := rfl

theorem zero_offsets : (![0, 0] : Fin 2 → Nat) = fun _ => 0 := funext fun a => by fin_cases a <;> rfl

/-- Point `t` writes back block `t` of the head. -/
theorem flushed_eq (c : Dev nD) (t : Fin cfg0.N) :
    (dats m 0 c).flushed 5 t = ((cfg0.win 5).blk t).view.read (Elt Ideal) (G m c) := by
  rw [Cert.KernelIdeal.Value.flushed5]
  unfold out0_5
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  rw [View.read_apply, cast_eq, out_emb, G_apply]
  refine (Cert.KernelIdeal.Tile.pay_apply (iblk m c 0 t) (iblk m c 1 t) (iblk m c 2 t) (iblk m c 3 t) (iblk m c 4 t) p q).trans ?_
  simp only [agg_blk, x_blk, wrel_blk, wroot_blk, bias_blk] <;> rfl

/-- An index of the array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Row r lies in the tile of point r / 5000: the ten tiles cover the array. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < grid0.N := by rw [N_0]; omega
  refine ⟨⟨(i 0).val / 5000, hN⟩, flush0_5 _, ?_⟩
  rw [mem_blk]
  obtain ⟨-, -, -, -, -, -, -, -, -, -, e0, e1⟩ := idx_facts ⟨(i 0).val / 5000, hN⟩
  have e0' : win0_5.index ⟨(i 0).val / 5000, hN⟩ (0 : Fin 2) = (i 0).val / 5000 := e0
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- The output array after the run is the head. -/
theorem final (c : Dev nD) : (dats m 0 c).arrAt 5 cfg0.N = G m c :=
  (dats m 0 c).arrAt_eq_of_cover 5 (G m c) (fun t _ => flushed_eq m c t) covered

/-- The kernel's run: it ends with the result array at the head and the arguments unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.ReferenceHead.lean ====
/-
  The reference computes the layer's head.

  After the neighbour sums A = segment_sum(x[src], dst) the reference forms  A · W_relᵀ + b + x · W_rootᵀ  and clips it at
  zero. Each product with a transposed weight matrix reads the stored matrix at (channel, k); the bias laid along the
  channel axis reads b at the channel. So at node p and channel q the result is

      max( (Σ_k A(p, k) · W_rel(q, k) + b(q)) + Σ_k x(p, k) · W_root(q, k),  0 ),

  the layer's head with the bias added before the root product.
-/
import proofs.«126234_j86973087744670_1_alg».proof.Proof.Gen.ReferenceIdeal.Read
import proofs.«126234_j86973087744670_1_alg».proof.Proof.HeadSpec

noncomputable section

namespace Cert.ReferenceIdeal.Head

open Cert.ReferenceIdeal Cert.ReferenceIdeal.Read Idealize.ShloMosaic Idealize.ShloMosaic.ValueIdx Cert.GraphConvHead

/-- The neighbour product's left factor at (p, q) and k is A(p, k). -/
theorem rel_lhs (i : S50000x64.Idx) (k : Fin 64) : lidx_main_v15 i k = ix2 (i 0) k :=
  funext fun a => by match a with | ⟨0, _⟩ => rfl | ⟨1, _⟩ => rfl

/-- Its right factor, read through the transpose, is W_rel(q, k). -/
theorem rel_rhs (i : S50000x64.Idx) (k : Fin 64) : idx_main_v14 (ridx_main_v15 i k) = ix2 (i 1) k :=
  funext fun a => by match a with | ⟨0, _⟩ => rfl | ⟨1, _⟩ => rfl

/-- The root product's left factor at (p, q) and k is x(p, k). -/
theorem root_lhs (i : S50000x64.Idx) (k : Fin 64) : lidx_main_v20 i k = ix2 (i 0) k :=
  funext fun a => by match a with | ⟨0, _⟩ => rfl | ⟨1, _⟩ => rfl

/-- Its right factor, read through the transpose, is W_root(q, k). -/
theorem root_rhs (i : S50000x64.Idx) (k : Fin 64) : idx_main_v19 (ridx_main_v20 i k) = ix2 (i 1) k :=
  funext fun a => by match a with | ⟨0, _⟩ => rfl | ⟨1, _⟩ => rfl

/-- The bias laid along the channel axis reads b at the channel. -/
theorem bias_idx (i : S50000x64.Idx) : idx_main_v16 (idx_main_v17 i) = ix1 (i 1) :=
  funext fun a => by match a with | ⟨0, _⟩ => rfl

/-- The reference's result is the layer's head of its neighbour sums, the node features, the two weight matrices and
    the bias: the same three summands, the bias added second instead of last. -/
theorem result_eq (x0 : FVec Ideal S50000x64 .f32) (x1 : FVec Ideal S64x64 .f32) (x2 : FVec Ideal S64 .f32)
    (x3 : FVec Ideal S64x64 .f32) (x4 : IVec S2x800000 32) :
    val_main_v22 (F := Ideal) x0 x1 x2 x3 x4 = head (val_main_v13 (F := Ideal) x0 x4) x0 x1 x3 x2 := by
  funext i
  rw [← head_bias_first, val_main_v22_apply, val_main_v21_apply, val_main_v18_apply, val_main_v15_apply,
    val_main_v20_apply, val_main_v17_apply, val_main_v16_apply, val_main_call0_v0_apply, val_main_call0_cst_apply]
  simp only [val_main_v14_apply, val_main_v19_apply, rel_lhs, rel_rhs, root_lhs, root_rhs, bias_idx,
    Ideal.maximumf_def, Ideal.addf_def, Ideal.ofBits_def]
  rfl

end Cert.ReferenceIdeal.Head

end
-- ==== Proof.NeighbourSums.lean ====
/-
  Both programs form the neighbour sums by the same host operations.

  Before the dense head, kernel and reference alike split the edge list into sources and destinations, wrap negative
  source indices once by the node count, gather the source rows of x and scatter-add them into a zero array at the
  destination rows. The two printed programs spell this with the same operations in the same order on the same
  arguments, so the array the kernel's launch finds is the reference's neighbour-sum stage of the same arguments,
  whatever the indices are.
-/
import proofs.«126234_j86973087744670_1_alg».proof.Proof.Gen.KernelIdeal.Frame
import proofs.«126234_j86973087744670_1_alg».proof.Proof.Gen.ReferenceIdeal.Read
import Idealize.ShloMosaic.Lib.StableHlo.Run

noncomputable section

namespace Cert.NeighbourSums

open Idealize.ShloMosaic Idealize.ShloMosaic.TcCoe Idealize.SL.Sem

/-- The array the kernel's first window stages is the reference's scatter-add stage of the same x and edge list. -/
theorem kernel_eq_reference
    (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v13 : (⟨2, ![50000, 64]⟩ : Shape).Idx → EReal)
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg4)) := by
  dsimp only [Cert.KernelIdeal.Gen.V, Cert.KernelIdeal.Gen.hostOps0]
  after_results
  rfl

end Cert.NeighbourSums

end
-- ==== Proof.lean ====
/-
  A graph-convolution layer: the kernel against its jnp reference, over the extended reals.

  Both programs first form the neighbour sums  A = segment_sum(x[src], dst)  on the host, by the same gather and
  scatter-add. The reference then computes  relu(A · W_relᵀ + b + x · W_rootᵀ)  with two host products; the kernel
  computes the same head in one pallas_call over ten bands of 5000 nodes: it narrows the operands to bf16 (no change of
  value on the extended reals), multiplies each band by the two transposed weight matrices, adds the two products,
  then the bias, and clips at zero. At node p and channel q both are

      max( Σ_k A(p, k) · W_rel(q, k) + Σ_k x(p, k) · W_root(q, k) + b(q), 0 ),

  the kernel adding the bias last and the reference second; addition on the extended reals is commutative and
  associative without any finiteness, so the precondition is not used. The ideal pass rewrote nothing, so the
  kernel's idealization is its own text.
-/
import proofs.«126234_j86973087744670_1_alg».proof.Defs
import proofs.«126234_j86973087744670_1_alg».proof.Proof.Gen.Kernel
import proofs.«126234_j86973087744670_1_alg».proof.Proof.Gen.Kernel.Skeleton
import proofs.«126234_j86973087744670_1_alg».proof.Proof.Gen.Kernel.Launch
import proofs.«126234_j86973087744670_1_alg».proof.Proof.Gen.Kernel.Points
import proofs.«126234_j86973087744670_1_alg».proof.Proof.Gen.Kernel.Frame
import proofs.«126234_j86973087744670_1_alg».proof.Proof.Gen.KernelIdeal
import proofs.«126234_j86973087744670_1_alg».proof.Proof.Gen.KernelIdeal.Skeleton
import proofs.«126234_j86973087744670_1_alg».proof.Proof.Gen.KernelIdeal.Launch
import proofs.«126234_j86973087744670_1_alg».proof.Proof.Gen.KernelIdeal.Points
import proofs.«126234_j86973087744670_1_alg».proof.Proof.Gen.KernelIdeal.Frame
import proofs.«126234_j86973087744670_1_alg».proof.Proof.Gen.ReferenceIdeal
import proofs.«126234_j86973087744670_1_alg».proof.Proof.Gen.Pre_finite_inputs
import proofs.«126234_j86973087744670_1_alg».proof.Proof.Gen.KernelIdeal.Value
import proofs.«126234_j86973087744670_1_alg».proof.Proof.Gen.ReferenceIdeal.Run
import proofs.«126234_j86973087744670_1_alg».proof.Proof.Gen.ReferenceIdeal.Read
import proofs.«126234_j86973087744670_1_alg».proof.Proof.KernelArray
import proofs.«126234_j86973087744670_1_alg».proof.Proof.ReferenceHead
import proofs.«126234_j86973087744670_1_alg».proof.Proof.NeighbourSums
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its run leaves the arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer's head of the same neighbour
    sums, features, weights and bias: the kernel by its ten tiles, the reference by its two products with the bias
    added in between. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Head.result_eq,
    (hagree c).1, (hagree c).2.1, (hagree c).2.2.1, (hagree c).2.2.2.1, (hagree c).2.2.2.2]
  show _ = Cert.KernelIdeal.Whole.G m c
  unfold Cert.KernelIdeal.Whole.G
  rw [Cert.KernelIdeal.Whole.aggArr_def, Cert.NeighbourSums.kernel_eq_reference]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
